-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x1x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .i1⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibSoftmaxRow.lean ====
/-
  Laws of the extended reals behind one row of attention weights.

  A row of scores `s` becomes weights in two forms. One form takes the row maximum `M` from a start value `b`,
  exponentiates `s k - M`, sums the row to `l`, and multiplies each exponential by the reciprocal `1 / l`. The
  other form takes the maximum of `b` and `M` again, adds the row sum to a zero, and divides each exponential by
  that. On the extended reals a division by zero is not a product with an inverse, so the two forms agree once
  `l` is not zero: when every score of the row is a real number and `b` is not plus infinity, `M` is not plus
  infinity, every `s k - M` is above minus infinity, every exponential is positive, and so is their sum.

  The score itself meets the same pair of forms: a nonnegative real factor on one operand of every product of a
  contraction comes out of the sum, on all extended reals, because a product with a nonnegative real
  distributes over any sum.
-/
import Idealize.ShloMosaic.PureOps.Ideal
import Mathlib.Data.Finset.Fold

noncomputable section

namespace Cert.RowLaws

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor on the left operand of each product comes out of a finite sum of products. -/
theorem sum_scaled_mul {ι : Type} (s : Finset ι) (a b : ι → EReal) (c : ℝ) (hc : 0 ≤ c) :
    ∑ i ∈ s, (a i * (c : EReal)) * b i = (∑ i ∈ s, a i * b i) * (c : EReal) := by
  classical
  induction s using Finset.induction_on with
  | empty => simp
  | insert x s hx ih =>
    rw [Finset.sum_insert hx, Finset.sum_insert hx, ih,
      EReal.right_distrib_of_nonneg_of_ne_top (EReal.coe_nonneg.mpr hc) (EReal.coe_ne_top c), mul_right_comm]

/-- The exponential of an extended real is never negative. -/
theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

/-- Above minus infinity it is positive. -/
theorem exp_pos {x : EReal} (h : x ≠ ⊥) : 0 < Ideal.exp x := by
  induction x using EReal.rec with
  | bot => exact absurd rfl h
  | coe r => rw [Ideal.exp_coe]; exact EReal.coe_pos.mpr (Real.exp_pos r)
  | top => rw [Ideal.exp_top]; exact EReal.zero_lt_top

variable {n : ℕ}

/-- The maximum of a row, folded from a start value. -/
def rowMax (b : EReal) (s : Fin n → EReal) : EReal := (Finset.univ : Finset (Fin n)).fold max b s

theorem start_le_rowMax (b : EReal) (s : Fin n → EReal) : b ≤ rowMax b s :=
  (Finset.le_fold_max b).mpr (Or.inl le_rfl)

/-- A row of values below plus infinity, from a start below plus infinity, has its maximum below plus infinity. -/
theorem rowMax_ne_top (b : EReal) (s : Fin n → EReal) (hb : b ≠ ⊤) (hs : ∀ k, s k ≠ ⊤) : rowMax b s ≠ ⊤ := by
  have h : rowMax b s < ⊤ :=
    (Finset.fold_max_lt ⊤).mpr ⟨lt_top_iff_ne_top.mpr hb, fun k _ => lt_top_iff_ne_top.mpr (hs k)⟩
  exact h.ne

/-- THE ROW LAW: for a row of real scores the weight as exponential times the reciprocal of the row sum is the
    weight as exponential over the row sum, the second form with its maximum taken once more against the start
    value and its sum started from zero. -/
theorem weights_eq (b one zero : EReal) (hb : b ≠ ⊤) (h1 : one = 1) (h0 : zero = 0)
    (s : Fin n → EReal) (hs : ∀ k, s k ≠ ⊥ ∧ s k ≠ ⊤) (k : Fin n) :
    Ideal.exp (s k - rowMax b s) * Ideal.div one (∑ k', Ideal.exp (s k' - rowMax b s))
      = Ideal.div (Ideal.exp (s k - max b (rowMax b s))) (zero + ∑ k', Ideal.exp (s k' - max b (rowMax b s))) := by
  subst h1 h0
  rw [max_eq_right (start_le_rowMax b s), zero_add]
  have hM := rowMax_ne_top b s hb (fun k => (hs k).2)
  have hne : ∀ k', s k' - rowMax b s ≠ ⊥ := fun k' h => by
    rw [sub_eq_add_neg] at h
    rcases EReal.add_eq_bot_iff.mp h with h | h
    · exact (hs k').1 h
    · exact hM (EReal.neg_eq_bot_iff.mp h)
  have hl : (∑ k', Ideal.exp (s k' - rowMax b s)) ≠ 0 := by
    have hpos : 0 < ∑ k', Ideal.exp (s k' - rowMax b s) :=
      lt_of_lt_of_le (exp_pos (hne k))
        (Finset.single_le_sum (f := fun k' => Ideal.exp (s k' - rowMax b s)) (fun i _ => exp_nonneg _) (Finset.mem_univ k))
    exact hpos.ne'
  unfold Ideal.div
  rw [if_neg hl, if_neg hl, one_mul]

end Cert.RowLaws

end
-- ==== Proof.TileRead.lean ====
/-
  One tile of the kernel read at an index.

  At a grid point the body holds a block of 512 query rows, the 2048 key rows and the 2048 value rows of one
  head, and the 512 x 2048 block of the mask widened to words. For query row `r` of the tile the masked scores
  are the row `srow r`: at key `k` the fill where the mask word is not zero, else the contraction over the
  head width of the query row scaled by 1/8 with key row `k`. The tile of weights at `(r, k)` is the
  exponential of `srow r k` less the row's maximum, times the reciprocal of the row's sum of exponentials; the
  tile of context at `(r, d)` is the contraction over the keys of the weights' row `r` with column `d` of the
  values. Changes of float format are the identity on the extended reals.
-/
import proofs.«429797_j4458176053409_3_alg».proof.Proof.Gen.KernelIdeal.Skeleton
import proofs.«429797_j4458176053409_3_alg».proof.Proof.LibSoftmaxRow
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.RowLaws

/-! ## Layout: a block with two unit axes read as a matrix, a column, a column spread over a row -/

section Layout
variable {α : Type}

theorem cast_q (x : S1x1x512x64.Idx → α) (r : Fin 512) (d : Fin 64) :
    shapeCast S512x64 x shapeCasts_S1x1x512x64_S512x64 (ix2 r d) = x (ix4 0 0 r d) :=
  shapeCast_apply x _ (ix2 r d) (ix4 0 0 r d) (by
    rw [Shape.rowMajor_val_two, Shape.rowMajor_val_four]
    show ((0 * 1 + 0) * 512 + r.val) * 64 + d.val = r.val * 64 + d.val
    omega)

theorem cast_kv (x : S1x1x2048x64.Idx → α) (k : Fin 2048) (d : Fin 64) :
    shapeCast S2048x64 x shapeCasts_S1x1x2048x64_S2048x64 (ix2 k d) = x (ix4 0 0 k d) :=
  shapeCast_apply x _ (ix2 k d) (ix4 0 0 k d) (by
    rw [Shape.rowMajor_val_two, Shape.rowMajor_val_four]
    show ((0 * 1 + 0) * 2048 + k.val) * 64 + d.val = k.val * 64 + d.val
    omega)

theorem cast_m (x : S1x1x512x2048.Idx → α) (r : Fin 512) (k : Fin 2048) :
    shapeCast S512x2048 x shapeCasts_S1x1x512x2048_S512x2048 (ix2 r k) = x (ix4 0 0 r k) :=
  shapeCast_apply x _ (ix2 r k) (ix4 0 0 r k) (by
    rw [Shape.rowMajor_val_two, Shape.rowMajor_val_four]
    show ((0 * 1 + 0) * 512 + r.val) * 2048 + k.val = r.val * 2048 + k.val
    omega)

theorem cast_ctx (x : S512x64.Idx → α) (r : Fin 512) (d : Fin 64) :
    shapeCast S1x1x512x64 x shapeCasts_S512x64_S1x1x512x64 (ix4 0 0 r d) = x (ix2 r d) :=
  shapeCast_apply x _ (ix4 0 0 r d) (ix2 r d) (by
    rw [Shape.rowMajor_val_two, Shape.rowMajor_val_four]
    show r.val * 64 + d.val = ((0 * 1 + 0) * 512 + r.val) * 64 + d.val
    omega)

theorem cast_col (v : S512.Idx → α) (r : Fin 512) :
    shapeCast S512x1 v shapeCasts_S512_S512x1 (ix2 r 0) = v (ix1 r) :=
  shapeCast_apply v _ (ix2 r 0) (ix1 r) (by
    rw [Shape.rowMajor_val_one, Shape.rowMajor_val_two]
    show r.val = r.val * 1 + 0
    omega)

theorem spread_col (w : S512x1.Idx → α) (r : Fin 512) (k : Fin 2048) :
    broadcastTo S512x2048 w broadcasts_S512x1_S512x2048 (ix2 r k) = w (ix2 r 0) :=
  broadcastTo_apply w _ (ix2 r k) (ix2 r 0) (fun a => match a with
    | ⟨0, _⟩ => by show r.val = if (512 : Nat) = 1 then 0 else r.val; rw [if_neg (by decide)]
    | ⟨1, _⟩ => by show 0 = if (1 : Nat) = 1 then 0 else k.val; rw [if_pos rfl])

end Layout

/-! ## The two contractions -/

theorem lhs_scores_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_scores_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_scores_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_scores_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys, both contracted over the head width: entry `(r, k)` is the sum over `d` of query row `r`
    times key row `k`. -/
theorem scores_apply (A : FVec Ideal S512x64 .bf16) (B : FVec Ideal S2048x64 .bf16) (r : Fin 512) (k : Fin 2048) :
    matmul dot_S512x64_S2048x64_S512x2048_1_1_0_0_n_n none A B (constant S512x2048 .f32 0x00000000#32) (ix2 r k)
      = ∑ d : Fin 64, A (ix2 r d) * B (ix2 k d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r k) ((ValueIdx.contrEquiv1 dot_S512x64_S2048x64_S512x2048_1_1_0_0_n_n 64 rfl rfl).symm d) = ix2 r d := funext fun a => Fin.ext (by
    match a with
    | ⟨0, _⟩ => exact lhs_scores_0 _ _
    | ⟨1, _⟩ => exact (lhs_scores_1 _ _).trans hk)
  have er : dot_S512x64_S2048x64_S512x2048_1_1_0_0_n_n.rhsIdx (ix2 r k) ((ValueIdx.contrEquiv1 dot_S512x64_S2048x64_S512x2048_1_1_0_0_n_n 64 rfl rfl).symm d) = ix2 k d := funext fun a => Fin.ext (by
    match a with
    | ⟨0, _⟩ => exact rhs_scores_0 _ _
    | ⟨1, _⟩ => exact (rhs_scores_1 _ _).trans hk)
  rw [el, er]

theorem lhs_ctx_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_ctx_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_ctx_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_ctx_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights against values, contracted over the keys: entry `(r, d)` is the sum over `k` of the weights' row `r`
    times column `d` of the values. -/
theorem context_apply (A : FVec Ideal S512x2048 .bf16) (B : FVec Ideal S2048x64 .bf16) (r : Fin 512) (d : Fin 64) :
    matmul dot_S512x2048_S2048x64_S512x64_1_0_0_1_n_n none A B (constant S512x64 .f32 0x00000000#32) (ix2 r d)
      = ∑ k : Fin 2048, A (ix2 r k) * B (ix2 k d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact lhs_ctx_0 _ _
    | ⟨1, _⟩ => exact (lhs_ctx_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (rhs_ctx_0 _ _).trans hk
    | ⟨1, _⟩ => exact rhs_ctx_1 _ _)
  rw [el, er]

/-! ## The two reductions along a row -/

/-- The maximum along the keys, from the start word: the fold of `max` over the row. -/
theorem rowmax_apply (X : FVec Ideal S512x2048 .f32) (r : Fin 512) :
    multiReduction .maximumf [1] S512 X 0xFF800000#32 reduces_S512x2048_S512 (.inl rfl) rfl (ix1 r)
      = rowMax (Ideal.ofBits .f32 0xFF800000#32) (fun k : Fin 2048 => X (ix2 r k)) := by
  refine (Ideal.multiReduction_maximumf_single X 0xFF800000#32 reduces_S512x2048_S512 (.inl rfl) rfl (ix1 r)).trans ?_
  unfold rowMax
  refine congrArg (fun f => (Finset.univ : Finset (Fin 2048)).fold max (Ideal.ofBits .f32 0xFF800000#32) f) (funext fun k => congrArg X (funext fun a => Fin.ext ?_))
  match a with
  | ⟨0, _⟩ => rfl
  | ⟨1, _⟩ => rfl

/-- The sum along the keys. -/
theorem rowsum_apply (X : FVec Ideal S512x2048 .f32) (r : Fin 512) :
    multiReduction .add [1] S512 X 0x00000000#32 reduces_S512x2048_S512 (.inl rfl) rfl (ix1 r)
      = ∑ k : Fin 2048, X (ix2 r k) := by
  refine (Ideal.multiReduction_add_single X 0x00000000#32 reduces_S512x2048_S512 (.inl rfl) rfl (ix1 r)).trans ?_
  refine Finset.sum_congr rfl fun k _ => congrArg X (funext fun a => Fin.ext ?_)
  match a with
  | ⟨0, _⟩ => rfl
  | ⟨1, _⟩ => rfl

/-! ## The tile of weights -/

/-- The masked scores of query row `r` of the tile. -/
def srow (P0 : Vec Ideal S1x1x512x64 .f32) (P1 : Vec Ideal S1x1x2048x64 .f32) (P2 : Vec Ideal S1x1x512x2048 .i32)
    (r : Fin 512) (k : Fin 2048) : EReal :=
  Scalar.select (IntOp.cmpi .ne (P2 (ix4 0 0 r k)) 0#32) (Ideal.ofBits .f32 0xCE6E6B28#32)
    (∑ d : Fin 64, (P0 (ix4 0 0 r d) * Ideal.ofBits .f32 0x3E000000#32) * P1 (ix4 0 0 k d))

/-- The scores before the mask: the scaled queries in the narrow format against the keys in the narrow format. -/
def scoreVec (P0 : Vec Ideal S1x1x512x64 .f32) (P1 : Vec Ideal S1x1x2048x64 .f32) : FVec Ideal S512x2048 .f32 :=
  matmul dot_S512x64_S2048x64_S512x2048_1_1_0_0_n_n none
    (truncf .bf16 (mulf (shapeCast S512x64 P0 shapeCasts_S1x1x512x64_S512x64) (broadcast S512x64 (Scalar.ofBits .f32 0x3E000000#32))) bitsLt_bf16_f32)
    (truncf .bf16 (shapeCast S2048x64 P1 shapeCasts_S1x1x2048x64_S2048x64) bitsLt_bf16_f32)
    (constant S512x2048 .f32 0x00000000#32)

/-- The scores with the fill where the mask word is not zero. -/
def maskedVec (P0 : Vec Ideal S1x1x512x64 .f32) (P1 : Vec Ideal S1x1x2048x64 .f32) (P2 : Vec Ideal S1x1x512x2048 .i32) : FVec Ideal S512x2048 .f32 :=
  select (cmpi .ne (shapeCast S512x2048 P2 shapeCasts_S1x1x512x2048_S512x2048) (constantI S512x2048 32 0#32))
    (broadcast S512x2048 (Scalar.ofBits .f32 0xCE6E6B28#32)) (scoreVec P0 P1)

/-- The exponentials of the masked scores less their row maxima. -/
def expVec (P0 : Vec Ideal S1x1x512x64 .f32) (P1 : Vec Ideal S1x1x2048x64 .f32) (P2 : Vec Ideal S1x1x512x2048 .i32) : FVec Ideal S512x2048 .f32 :=
  exp (subf (maskedVec P0 P1 P2)
    (broadcastTo S512x2048 (shapeCast S512x1 (multiReduction .maximumf [1] S512 (maskedVec P0 P1 P2) 0xFF800000#32 reduces_S512x2048_S512 (.inl rfl) rfl) shapeCasts_S512_S512x1) broadcasts_S512x1_S512x2048))

/-- The body's weights are these stages composed. -/
theorem pay4_eq (P0 : Vec Ideal S1x1x512x64 .f32) (P1 : Vec Ideal S1x1x2048x64 .f32) (P2 : Vec Ideal S1x1x512x2048 .i32) :
    k0_pay4 (F := Ideal) P0 P1 P2
      = mulf (expVec P0 P1 P2)
          (broadcastTo S512x2048 (divf (broadcast S512x1 (Scalar.ofBits .f32 0x3F800000#32))
            (shapeCast S512x1 (multiReduction .add [1] S512 (expVec P0 P1 P2) 0x00000000#32 reduces_S512x2048_S512 (.inl rfl) rfl) shapeCasts_S512_S512x1)) broadcasts_S512x1_S512x2048) := rfl

theorem scoreVec_apply (P0 : Vec Ideal S1x1x512x64 .f32) (P1 : Vec Ideal S1x1x2048x64 .f32) (r : Fin 512) (k : Fin 2048) :
    scoreVec P0 P1 (ix2 r k) = ∑ d : Fin 64, (P0 (ix4 0 0 r d) * Ideal.ofBits .f32 0x3E000000#32) * P1 (ix4 0 0 k d) := by
  unfold scoreVec
  rw [scores_apply]
  refine Finset.sum_congr rfl fun d _ => ?_
  show (shapeCast S512x64 P0 shapeCasts_S1x1x512x64_S512x64 (ix2 r d) * Ideal.ofBits .f32 0x3E000000#32)
      * shapeCast S2048x64 P1 shapeCasts_S1x1x2048x64_S2048x64 (ix2 k d) = _
  rw [cast_q, cast_kv]

theorem maskedVec_apply (P0 : Vec Ideal S1x1x512x64 .f32) (P1 : Vec Ideal S1x1x2048x64 .f32) (P2 : Vec Ideal S1x1x512x2048 .i32) (r : Fin 512) (k : Fin 2048) :
    maskedVec P0 P1 P2 (ix2 r k) = srow P0 P1 P2 r k := by
  unfold maskedVec srow
  show Scalar.select (IntOp.cmpi .ne (shapeCast S512x2048 P2 shapeCasts_S1x1x512x2048_S512x2048 (ix2 r k)) 0#32)
      (Ideal.ofBits .f32 0xCE6E6B28#32) (scoreVec P0 P1 (ix2 r k)) = _
  rw [cast_m, scoreVec_apply]

theorem expVec_apply (P0 : Vec Ideal S1x1x512x64 .f32) (P1 : Vec Ideal S1x1x2048x64 .f32) (P2 : Vec Ideal S1x1x512x2048 .i32) (r : Fin 512) (k : Fin 2048) :
    expVec P0 P1 P2 (ix2 r k)
      = Ideal.exp (srow P0 P1 P2 r k - rowMax (Ideal.ofBits .f32 0xFF800000#32) (srow P0 P1 P2 r)) := by
  unfold expVec
  show Ideal.exp (maskedVec P0 P1 P2 (ix2 r k)
      - broadcastTo S512x2048 (shapeCast S512x1 (multiReduction .maximumf [1] S512 (maskedVec P0 P1 P2) 0xFF800000#32 reduces_S512x2048_S512 (.inl rfl) rfl) shapeCasts_S512_S512x1) broadcasts_S512x1_S512x2048 (ix2 r k)) = _
  rw [spread_col, cast_col, rowmax_apply, maskedVec_apply]
  exact congrArg (fun f => Ideal.exp (srow P0 P1 P2 r k - rowMax (Ideal.ofBits .f32 0xFF800000#32) f))
    (funext fun k' => maskedVec_apply P0 P1 P2 r k')

/-- THE TILE OF WEIGHTS at `(r, k)`: the exponential of the masked score less the row maximum, times the reciprocal
    of the row's sum of exponentials. -/
theorem pay4_apply (P0 : Vec Ideal S1x1x512x64 .f32) (P1 : Vec Ideal S1x1x2048x64 .f32) (P2 : Vec Ideal S1x1x512x2048 .i32) (r : Fin 512) (k : Fin 2048) :
    k0_pay4 (F := Ideal) P0 P1 P2 (ix2 r k)
      = Ideal.exp (srow P0 P1 P2 r k - rowMax (Ideal.ofBits .f32 0xFF800000#32) (srow P0 P1 P2 r))
        * Ideal.div (Ideal.ofBits .f32 0x3F800000#32)
            (∑ k' : Fin 2048, Ideal.exp (srow P0 P1 P2 r k' - rowMax (Ideal.ofBits .f32 0xFF800000#32) (srow P0 P1 P2 r))) := by
  rw [pay4_eq]
  show expVec P0 P1 P2 (ix2 r k)
      * broadcastTo S512x2048 (divf (broadcast S512x1 (Scalar.ofBits .f32 0x3F800000#32))
          (shapeCast S512x1 (multiReduction .add [1] S512 (expVec P0 P1 P2) 0x00000000#32 reduces_S512x2048_S512 (.inl rfl) rfl) shapeCasts_S512_S512x1)) broadcasts_S512x1_S512x2048 (ix2 r k) = _
  rw [spread_col]
  show expVec P0 P1 P2 (ix2 r k)
      * Ideal.div (Ideal.ofBits .f32 0x3F800000#32)
          (shapeCast S512x1 (multiReduction .add [1] S512 (expVec P0 P1 P2) 0x00000000#32 reduces_S512x2048_S512 (.inl rfl) rfl) shapeCasts_S512_S512x1 (ix2 r 0)) = _
  rw [cast_col, rowsum_apply, expVec_apply]
  exact congrArg (fun f : Fin 2048 → EReal => Ideal.exp (srow P0 P1 P2 r k - rowMax (Ideal.ofBits .f32 0xFF800000#32) (srow P0 P1 P2 r))
      * Ideal.div (Ideal.ofBits .f32 0x3F800000#32) (∑ k' : Fin 2048, f k'))
    (funext fun k' => expVec_apply P0 P1 P2 r k')

/-! ## The tile of context -/

/-- THE TILE OF CONTEXT at `(r, d)`, for any weights `T`: the sum over the keys of `T`'s row `r` times column `d` of the
    value block. -/
theorem pay2_apply (Pv : Vec Ideal S1x1x2048x64 .f32) (T : FVec Ideal S512x2048 .f32) (r : Fin 512) (d : Fin 64) :
    k0_pay2 (F := Ideal) (k0_pay3 Pv) T (ix4 0 0 r d) = ∑ k : Fin 2048, T (ix2 r k) * Pv (ix4 0 0 k d) := by
  show shapeCast S1x1x512x64 (matmul dot_S512x2048_S2048x64_S512x64_1_0_0_1_n_n none (truncf .bf16 T bitsLt_bf16_f32) (k0_pay3 Pv) (constant S512x64 .f32 0x00000000#32)) shapeCasts_S512x64_S1x1x512x64 (ix4 0 0 r d) = _
  rw [cast_ctx, context_apply]
  refine Finset.sum_congr rfl fun k _ => ?_
  show T (ix2 r k) * shapeCast S2048x64 Pv shapeCasts_S1x1x2048x64_S2048x64 (ix2 k d) = _
  rw [cast_kv]

end Cert.KernelIdeal.Tile

end
-- ==== Proof.RefRead.lean ====
/-
  The reference read at an index, a row at a time.

  For batch `b`, head `h` and query `q` the reference's masked scores are the row `rrow b h q`: at key `k` the fill
  where the mask bit of `(b, q, k)` is set (the mask has one head, shared by all sixteen), else the contraction
  over the head width of query row `q` with key row `k`, divided by 8. Its weights at `(b, h, q, k)` are the
  exponential of the masked score less the row maximum (taken once more against minus infinity), over zero plus
  the row's sum of those exponentials; its context at `(b, h, q, d)` is the contraction over the keys of the
  weights with the values.
-/
import proofs.«429797_j4458176053409_3_alg».proof.Proof.Gen.ReferenceIdeal.Read
import proofs.«429797_j4458176053409_3_alg».proof.Proof.LibSoftmaxRow
import Idealize.ShloMosaic.PureOps.Reduce

noncomputable section

namespace Cert.ReferenceIdeal.RowRead

open Cert.ReferenceIdeal Cert.ReferenceIdeal.Gen Cert.ReferenceIdeal.Read Idealize.ShloMosaic Idealize.ShloMosaic.ValueIdx Cert.RowLaws

variable (x0 x1 x2 : (⟨S2x16x2048x64, .f32⟩ : BufTy).Contents (Elt Ideal)) (x3 : (⟨S2x1x2048x2048, .i1⟩ : BufTy).Contents (Elt Ideal))

/-- The reference's masked scores of query `q` of head `h` of batch `b`. -/
def rrow (b : Fin 2) (h : Fin 16) (q : Fin 2048) (k : Fin 2048) : EReal :=
  Scalar.select (x3 (ix4 b 0 q k)) (Ideal.ofBits .f32 0xCE6E6B28#32)
    (Ideal.div (∑ d : Fin 64, x0 (ix4 b h q d) * x1 (ix4 b h k d)) (Ideal.ofBits .f32 0x41000000#32))

/-! ## The indices the stages read, at coordinates -/

theorem lidx_scores (b : Fin 2) (h : Fin 16) (q k : Fin 2048) (d : Fin 64) : lidx_main_v0 (ix4 b h q k) d = ix4 b h q d :=
  funext fun a => by match a with | ⟨0, _⟩ => rfl | ⟨1, _⟩ => rfl | ⟨2, _⟩ => rfl | ⟨3, _⟩ => rfl
theorem ridx_scores (b : Fin 2) (h : Fin 16) (q k : Fin 2048) (d : Fin 64) : ridx_main_v0 (ix4 b h q k) d = ix4 b h k d :=
  funext fun a => by match a with | ⟨0, _⟩ => rfl | ⟨1, _⟩ => rfl | ⟨2, _⟩ => rfl | ⟨3, _⟩ => rfl
theorem idx_mask (b : Fin 2) (h : Fin 16) (q k : Fin 2048) : idx_main_call0_v0 (ix4 b h q k) = ix4 b 0 q k :=
  funext fun a => by match a with | ⟨0, _⟩ => rfl | ⟨1, _⟩ => rfl | ⟨2, _⟩ => rfl | ⟨3, _⟩ => rfl
theorem idx_row (b : Fin 2) (h : Fin 16) (q k : Fin 2048) : idx_main_v7 (idx_main_v8 (ix4 b h q k)) = ix3 b h q :=
  funext fun a => by match a with | ⟨0, _⟩ => rfl | ⟨1, _⟩ => rfl | ⟨2, _⟩ => rfl
theorem idx_row_sum (b : Fin 2) (h : Fin 16) (q k : Fin 2048) : idx_main_v12 (idx_main_v13 (ix4 b h q k)) = ix3 b h q :=
  funext fun a => by match a with | ⟨0, _⟩ => rfl | ⟨1, _⟩ => rfl | ⟨2, _⟩ => rfl
theorem idx_sum (b : Fin 2) (h : Fin 16) (q k : Fin 2048) : idx_main_v11 (ix3 b h q) k = ix4 b h q k :=
  funext fun a => by match a with | ⟨0, _⟩ => rfl | ⟨1, _⟩ => rfl | ⟨2, _⟩ => rfl | ⟨3, _⟩ => rfl
theorem lidx_ctx (b : Fin 2) (h : Fin 16) (q : Fin 2048) (d : Fin 64) (k : Fin 2048) : lidx_main_v15 (ix4 b h q d) k = ix4 b h q k :=
  funext fun a => by match a with | ⟨0, _⟩ => rfl | ⟨1, _⟩ => rfl | ⟨2, _⟩ => rfl | ⟨3, _⟩ => rfl
theorem ridx_ctx (b : Fin 2) (h : Fin 16) (q : Fin 2048) (d : Fin 64) (k : Fin 2048) : ridx_main_v15 (ix4 b h q d) k = ix4 b h k d :=
  funext fun a => by match a with | ⟨0, _⟩ => rfl | ⟨1, _⟩ => rfl | ⟨2, _⟩ => rfl | ⟨3, _⟩ => rfl

/-! ## The stages at coordinates -/

/-- The masked scores. -/
theorem v3_apply (b : Fin 2) (h : Fin 16) (q k : Fin 2048) :
    val_main_v3 (F := Ideal) x0 x1 x3 (ix4 b h q k) = rrow x0 x1 x3 b h q k := by
  rw [val_main_v3_apply, val_main_call0_v0_apply, val_main_call0_v1_apply, val_main_cst_0_apply, val_main_v2_apply,
    val_main_v0_apply, val_main_v1_apply, val_main_cst_apply, idx_mask]
  unfold rrow
  refine congrArg (fun s : EReal => Scalar.select (x3 (ix4 b 0 q k)) (Ideal.ofBits .f32 0xCE6E6B28#32)
    (Ideal.div s (Ideal.ofBits .f32 0x41000000#32))) (Finset.sum_congr rfl fun d _ => ?_)
  rw [lidx_scores, ridx_scores]

/-- The row maximum: the fold of `max` over the keys from the start word. -/
theorem v4_apply (b : Fin 2) (h : Fin 16) (q : Fin 2048) :
    val_main_v4 (F := Ideal) x0 x1 x3 (ix3 b h q) = rowMax (Ideal.ofBits .f32 0xFF800000#32) (rrow x0 x1 x3 b h q) := by
  unfold val_main_v4
  have hred : S2x16x2048x2048.Reduces [3] S2x16x2048 := by decide
  refine (Host.reduce_eq_fold_single (FloatOps.maximumf (F := Ideal) (φ := .f32)) (val_main_v3 (F := Ideal) x0 x1 x3)
    (val_main_cst_1 (F := Ideal)) reducesTo_S2x16x2048x2048_S2x16x2048_d3 hred h_S_ (ix3 b h q)).trans ?_
  unfold rowMax
  refine congrArg (fun f => (Finset.univ : Finset (Fin 2048)).fold max (Ideal.ofBits .f32 0xFF800000#32) f) (funext fun k => ?_)
  refine Eq.trans (congrArg (val_main_v3 (F := Ideal) x0 x1 x3) (funext fun a => Fin.ext ?_)) (v3_apply x0 x1 x3 b h q k)
  match a with
  | ⟨0, _⟩ => rfl
  | ⟨1, _⟩ => rfl
  | ⟨2, _⟩ => rfl
  | ⟨3, _⟩ => rfl

/-- The exponentials. -/
theorem v10_apply (b : Fin 2) (h : Fin 16) (q k : Fin 2048) :
    val_main_v10 (F := Ideal) x0 x1 x3 (ix4 b h q k)
      = Ideal.exp (rrow x0 x1 x3 b h q k
          - max (Ideal.ofBits .f32 0xFF800000#32) (rowMax (Ideal.ofBits .f32 0xFF800000#32) (rrow x0 x1 x3 b h q))) := by
  rw [val_main_v10_apply, val_main_v9_apply, val_main_v8_apply, val_main_v7_apply, val_main_v6_apply, val_main_v5_apply,
    val_main_cst_2_apply, idx_row, v3_apply, v4_apply]
  rfl

/-- THE REFERENCE'S WEIGHTS at `(b, h, q, k)`. -/
theorem v14_apply (b : Fin 2) (h : Fin 16) (q k : Fin 2048) :
    val_main_v14 (F := Ideal) x0 x1 x3 (ix4 b h q k)
      = Ideal.div
          (Ideal.exp (rrow x0 x1 x3 b h q k
            - max (Ideal.ofBits .f32 0xFF800000#32) (rowMax (Ideal.ofBits .f32 0xFF800000#32) (rrow x0 x1 x3 b h q))))
          (Ideal.ofBits .f32 0x00000000#32 + ∑ k' : Fin 2048, Ideal.exp (rrow x0 x1 x3 b h q k'
            - max (Ideal.ofBits .f32 0xFF800000#32) (rowMax (Ideal.ofBits .f32 0xFF800000#32) (rrow x0 x1 x3 b h q)))) := by
  rw [val_main_v14_apply, val_main_v13_apply, val_main_v12_apply, val_main_v11_apply, val_main_cst_3_apply, idx_row_sum, v10_apply]
  refine congrArg (fun s : EReal => Ideal.div _ (Ideal.ofBits .f32 0x00000000#32 + s)) (Finset.sum_congr rfl fun k' _ => ?_)
  rw [idx_sum, v10_apply]

/-- THE REFERENCE'S CONTEXT at `(b, h, q, d)`: the sum over the keys of its weights times the values. -/
theorem v15_apply (b : Fin 2) (h : Fin 16) (q : Fin 2048) (d : Fin 64) :
    val_main_v15 (F := Ideal) x0 x1 x2 x3 (ix4 b h q d)
      = ∑ k : Fin 2048, val_main_v14 (F := Ideal) x0 x1 x3 (ix4 b h q k) * x2 (ix4 b h k d) := by
  rw [val_main_v15_apply]
  refine Finset.sum_congr rfl fun k _ => ?_
  rw [lidx_ctx, ridx_ctx]

end Cert.ReferenceIdeal.RowRead

end
-- ==== Proof.Words.lean ====
/-
  The float words this proof reads, as the extended reals they denote: the query scale 0.125 (the reciprocal
  of the square root of the head width 64) is the rational 1/8, the reference's divisor 8.0 is the real 8, the
  numerator of the row reciprocal is 1, the start of the row maximum is minus infinity, and the masked
  fill is a real number. All of them are evaluated here, once.
-/
import Idealize.ShloMosaic.PureOps.Ideal

noncomputable section

namespace Cert.Words

open Idealize.ShloMosaic

/-- The word 0x3E000000 (0.125) denotes the rational 1/8. -/
theorem eighth : Ideal.ofBits .f32 0x3E000000#32 = ((1 / 8 : ℝ) : EReal) := by
  simp [Ideal.ofBits, Ideal.ieee, -EReal.coe_mul]; norm_num

/-- The word 0x41000000 (8.0) denotes the real 8. -/
theorem eight : Ideal.ofBits .f32 0x41000000#32 = ((8 : ℝ) : EReal) := by
  simp [Ideal.ofBits, Ideal.ieee, -EReal.coe_mul]; norm_num

/-- The word 0x3F800000 (1.0) denotes 1. -/
theorem one : Ideal.ofBits .f32 0x3F800000#32 = 1 := by
  simp [Ideal.ofBits, Ideal.ieee, -EReal.coe_mul]; norm_num

/-- The word 0xFF800000, from which a row maximum starts, denotes minus infinity. -/
theorem neg_inf : Ideal.ofBits .f32 0xFF800000#32 = ⊥ := by
  simp [Ideal.ofBits, Ideal.ieee]

/-- The word 0x7F800000, the bound of the finiteness test, denotes plus infinity. -/
theorem pos_inf : Ideal.ofBits .f32 0x7F800000#32 = ⊤ := by
  simp [Ideal.ofBits, Ideal.ieee]

/-- The masked fill 0xCE6E6B28 (-1e9) denotes a real number: it is neither infinity. -/
theorem fill_ne_bot : Ideal.ofBits .f32 0xCE6E6B28#32 ≠ ⊥ := by
  simp [Ideal.ofBits, Ideal.ieee, -EReal.coe_mul]

theorem fill_ne_top : Ideal.ofBits .f32 0xCE6E6B28#32 ≠ ⊤ := by
  simp [Ideal.ofBits, Ideal.ieee, -EReal.coe_mul]

end Cert.Words

end
-- ==== Proof.TileJoin.lean ====
/-
  A tile of the kernel is the reference on the tile's rows.

  Tile `q0` of head `h` of batch `b` holds queries `q0 * 512 + r`. When the body's blocks are those rows of the
  argument arrays — the query block rows `q0 * 512 + r` of `(b, h)`, the key and value blocks all of `(b, h)`, the
  mask block rows `q0 * 512 + r` of `b` as words — the kernel's masked-score row is the reference's: the mask word
  is not zero exactly where the bit is set, and the contraction of the query scaled by 1/8 is the contraction
  divided by 8 (the factor comes out of the sum; a quotient by 8 is a product with 1/8). Real queries and keys make
  every masked score real, so the row law joins the two forms of the weights; the context is the same sum over the
  keys on both sides.
-/
import proofs.«429797_j4458176053409_3_alg».proof.Proof.TileRead
import proofs.«429797_j4458176053409_3_alg».proof.Proof.RefRead
import proofs.«429797_j4458176053409_3_alg».proof.Proof.Words

noncomputable section

namespace Cert.TileJoin

open Idealize.ShloMosaic Idealize.ShloMosaic.ValueIdx Cert.RowLaws
open Cert.KernelIdeal.Gen Cert.KernelIdeal.Tile Cert.ReferenceIdeal.Read Cert.ReferenceIdeal.RowRead

/-- Query `r` of tile `q0` among the 2048 queries of a head. -/
def qrow (q0 : Fin 4) (r : Fin 512) : Fin 2048 := ⟨q0.val * 512 + r.val, by have := q0.isLt; have := r.isLt; omega⟩

/-- A mask bit widened to a word is not zero exactly when the bit is set. -/
theorem mask_word (x : BitVec 1) : IntOp.cmpi .ne (x.setWidth 32) 0#32 = x := by
  by_cases h : x = 1#1
  · subst h; decide
  · have h0 := eq_zero_of_ne_one h; subst h0; decide

variable (Q K Vv : (⟨Cert.ReferenceIdeal.S2x16x2048x64, .f32⟩ : BufTy).Contents (Elt Ideal))
  (M : (⟨Cert.ReferenceIdeal.S2x1x2048x2048, .i1⟩ : BufTy).Contents (Elt Ideal))

/-- Real queries and keys make every masked score of the reference a real number. -/
theorem rrow_real (hQ : ∀ i, Q i ≠ ⊥ ∧ Q i ≠ ⊤) (hK : ∀ i, K i ≠ ⊥ ∧ K i ≠ ⊤) (b : Fin 2) (h : Fin 16) (q k : Fin 2048) :
    rrow Q K M b h q k ≠ ⊥ ∧ rrow Q K M b h q k ≠ ⊤ := by
  unfold rrow Scalar.select
  split
  · exact ⟨Cert.Words.fill_ne_bot, Cert.Words.fill_ne_top⟩
  · have hsum : ∑ d : Fin 64, Q (ix4 b h q d) * K (ix4 b h k d)
        = ((∑ d : Fin 64, (Q (ix4 b h q d)).toReal * (K (ix4 b h k d)).toReal : ℝ) : EReal) := by
      rw [coe_sum]
      refine Finset.sum_congr rfl fun d _ => ?_
      rw [EReal.coe_mul, EReal.coe_toReal (hQ _).2 (hQ _).1, EReal.coe_toReal (hK _).2 (hK _).1]
    rw [Cert.Words.eight, Ideal.div_coe (by norm_num : (8 : ℝ) ≠ 0), hsum, ← EReal.coe_mul]
    exact ⟨EReal.coe_ne_bot _, EReal.coe_ne_top _⟩

variable (P0 : Vec Ideal Cert.KernelIdeal.S1x1x512x64 .f32) (P1 Pv : Vec Ideal Cert.KernelIdeal.S1x1x2048x64 .f32)
  (P2 : Vec Ideal Cert.KernelIdeal.S1x1x512x2048 .i32) (b : Fin 2) (h : Fin 16) (q0 : Fin 4)

/-- The kernel's masked-score row of a tile is the reference's row of the same query. -/
theorem srow_eq (hP0 : ∀ r d, P0 (ix4 0 0 r d) = Q (ix4 b h (qrow q0 r) d))
    (hP1 : ∀ k d, P1 (ix4 0 0 k d) = K (ix4 b h k d))
    (hP2 : ∀ r k, P2 (ix4 0 0 r k) = (M (ix4 b 0 (qrow q0 r) k)).setWidth 32) (r : Fin 512) :
    srow P0 P1 P2 r = rrow Q K M b h (qrow q0 r) := by
  funext k
  unfold srow rrow
  rw [hP2 r k, mask_word]
  refine congrArg (Scalar.select (M (ix4 b 0 (qrow q0 r) k)) (Ideal.ofBits .f32 0xCE6E6B28#32)) ?_
  rw [Cert.Words.eighth, Cert.Words.eight, Ideal.div_coe (by norm_num : (8 : ℝ) ≠ 0),
    ← sum_scaled_mul Finset.univ (fun d : Fin 64 => Q (ix4 b h (qrow q0 r) d)) (fun d : Fin 64 => K (ix4 b h k d)) (1 / 8) (by norm_num)]
  refine Finset.sum_congr rfl fun d _ => ?_
  rw [hP0 r d, hP1 k d]

/-- THE TILE OF WEIGHTS IS THE REFERENCE'S WEIGHTS on the tile's rows. -/
theorem weights_tile_eq (hQ : ∀ i, Q i ≠ ⊥ ∧ Q i ≠ ⊤) (hK : ∀ i, K i ≠ ⊥ ∧ K i ≠ ⊤)
    (hP0 : ∀ r d, P0 (ix4 0 0 r d) = Q (ix4 b h (qrow q0 r) d))
    (hP1 : ∀ k d, P1 (ix4 0 0 k d) = K (ix4 b h k d))
    (hP2 : ∀ r k, P2 (ix4 0 0 r k) = (M (ix4 b 0 (qrow q0 r) k)).setWidth 32) (r : Fin 512) (k : Fin 2048) :
    k0_pay4 (F := Ideal) P0 P1 P2 (ix2 r k) = val_main_v14 (F := Ideal) Q K M (ix4 b h (qrow q0 r) k) := by
  rw [pay4_apply, v14_apply, srow_eq Q K M P0 P1 P2 b h q0 hP0 hP1 hP2 r]
  exact weights_eq _ _ _ (by rw [Cert.Words.neg_inf]; exact bot_ne_top) Cert.Words.one Ideal.ofBits_zero_f32 _
    (fun k' => rrow_real Q K M hQ hK b h (qrow q0 r) k') k

/-- THE TILE OF CONTEXT IS THE REFERENCE'S CONTEXT on the tile's rows. -/
theorem context_tile_eq (hQ : ∀ i, Q i ≠ ⊥ ∧ Q i ≠ ⊤) (hK : ∀ i, K i ≠ ⊥ ∧ K i ≠ ⊤)
    (hP0 : ∀ r d, P0 (ix4 0 0 r d) = Q (ix4 b h (qrow q0 r) d))
    (hP1 : ∀ k d, P1 (ix4 0 0 k d) = K (ix4 b h k d))
    (hP2 : ∀ r k, P2 (ix4 0 0 r k) = (M (ix4 b 0 (qrow q0 r) k)).setWidth 32)
    (hPv : ∀ k d, Pv (ix4 0 0 k d) = Vv (ix4 b h k d)) (r : Fin 512) (d : Fin 64) :
    k0_pay2 (F := Ideal) (k0_pay3 Pv) (k0_pay4 P0 P1 P2) (ix4 0 0 r d)
      = val_main_v15 (F := Ideal) Q K Vv M (ix4 b h (qrow q0 r) d) := by
  rw [pay2_apply, v15_apply]
  refine Finset.sum_congr rfl fun k _ => ?_
  rw [weights_tile_eq Q K M P0 P1 P2 b h q0 hQ hK hP0 hP1 hP2 r k, hPv k d]

end Cert.TileJoin

end
-- ==== Proof.Arrays.lean ====
/-
  From the kernel's blocks to its two result arrays.

  The grid has a point for every batch `b`, head `h` and tile `q0` of 512 queries. At the point the query, context and
  weight windows sit at block `(b, h, q0)`, the key and value windows at block `(b, h)`, and the mask window — over the
  mask widened to words by the one host operation before the call — at block `(b, q0)` of the mask's single head. So
  the body's blocks are the rows the tile lemmas ask for, what the point writes back is the reference's weights and
  context read through the point's block, the blocks cover both result arrays, and the run ends with the context
  array at the reference's context and the weight array at the reference's weights, as whole arrays.
-/
import proofs.«429797_j4458176053409_3_alg».proof.Proof.Gen.KernelIdeal.Value
import proofs.«429797_j4458176053409_3_alg».proof.Proof.TileJoin
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.TileJoin Cert.ReferenceIdeal.Read Cert.KernelIdeal.Tile

theorem hz4 : (![0, 0, 0, 0] : Fin 4 → Nat) = fun _ => 0 := funext fun a => by fin_cases a <;> rfl

/-! ## What the body leaves in a block, from blocks that are rows of the arrays -/

section Tile

variable (Q K Vv : (⟨S2x16x2048x64, .f32⟩ : BufTy).Contents (Elt Ideal)) (M : (⟨S2x1x2048x2048, .i1⟩ : BufTy).Contents (Elt Ideal))
  (x0 : Vec Ideal S1x1x512x64 .f32) (x1 x2 : Vec Ideal S1x1x2048x64 .f32) (x3 : Vec Ideal S1x1x512x2048 .i32)
  (b : Fin 2) (h : Fin 16) (q0 : Fin 4)

theorem cast_weights {α : Type} (x : S512x2048.Idx → α) (r : Fin 512) (k : Fin 2048) :
    shapeCast S1x1x512x2048 x shapeCasts_S512x2048_S1x1x512x2048 (ix4 0 0 r k) = x (ix2 r k) :=
  shapeCast_apply x _ (ix4 0 0 r k) (ix2 r k) (by
    rw [Shape.rowMajor_val_two, Shape.rowMajor_val_four]
    show r.val * 2048 + k.val = ((0 * 1 + 0) * 512 + r.val) * 2048 + k.val
    omega)

/-- The weight block after the body, entry `y`: the reference's weights at query `q0 * 512 + y 2`, key `y 3`. -/
theorem out5_apply (hQ : ∀ i, Q i ≠ ⊥ ∧ Q i ≠ ⊤) (hK : ∀ i, K i ≠ ⊥ ∧ K i ≠ ⊤)
    (h0 : ∀ r d, x0 (ix4 0 0 r d) = Q (ix4 b h (qrow q0 r) d))
    (h1 : ∀ k d, x1 (ix4 0 0 k d) = K (ix4 b h k d))
    (h3 : ∀ r k, x3 (ix4 0 0 r k) = (M (ix4 b 0 (qrow q0 r) k)).setWidth 32) (y : S1x1x512x2048.Idx) :
    out0_5 x0 x1 x2 x3 y = val_main_v14 (F := Ideal) Q K M (ix4 b h (qrow q0 (y 2)) (y 3)) := by
  unfold out0_5
  rw [View.canon_unit_zero hz4]
  simp only [View.ld_unit_zero (S := S1x1x512x64) hz4, View.ld_unit_zero (S := S1x1x2048x64) hz4, View.ld_unit_zero (S := S1x1x512x2048) hz4]
  obtain ⟨r, k, rfl⟩ : ∃ (r : Fin 512) (k : Fin 2048), y = ix4 (0 : Fin 1) (0 : Fin 1) r k := ⟨y 2, y 3, funext fun a => Fin.ext (by
    match a with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl
    | ⟨3, _⟩ => rfl)⟩
  show shapeCast S1x1x512x2048 (k0_pay4 x0 x1 x3) shapeCasts_S512x2048_S1x1x512x2048 (ix4 0 0 r k)
    = val_main_v14 (F := Ideal) Q K M (ix4 b h (qrow q0 r) k)
  rw [cast_weights]
  exact weights_tile_eq Q K M x0 x1 x3 b h q0 hQ hK h0 h1 h3 r k

/-- The context block after the body, entry `y`: the reference's context at query `q0 * 512 + y 2`, column `y 3`. -/
theorem out4_apply (hQ : ∀ i, Q i ≠ ⊥ ∧ Q i ≠ ⊤) (hK : ∀ i, K i ≠ ⊥ ∧ K i ≠ ⊤)
    (h0 : ∀ r d, x0 (ix4 0 0 r d) = Q (ix4 b h (qrow q0 r) d))
    (h1 : ∀ k d, x1 (ix4 0 0 k d) = K (ix4 b h k d))
    (h2 : ∀ k d, x2 (ix4 0 0 k d) = Vv (ix4 b h k d))
    (h3 : ∀ r k, x3 (ix4 0 0 r k) = (M (ix4 b 0 (qrow q0 r) k)).setWidth 32) (y : S1x1x512x64.Idx) :
    out0_4 x0 x1 x2 x3 y = val_main_v15 (F := Ideal) Q K Vv M (ix4 b h (qrow q0 (y 2)) (y 3)) := by
  unfold out0_4
  rw [View.canon_unit_zero hz4]
  simp only [View.ld_unit_zero (S := S1x1x512x64) hz4, View.ld_unit_zero (S := S1x1x2048x64) hz4, View.ld_unit_zero (S := S1x1x512x2048) hz4]
  obtain ⟨r, d, rfl⟩ : ∃ (r : Fin 512) (d : Fin 64), y = ix4 (0 : Fin 1) (0 : Fin 1) r d := ⟨y 2, y 3, funext fun a => Fin.ext (by
    match a with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl
    | ⟨3, _⟩ => rfl)⟩
  exact context_tile_eq Q K Vv M x0 x1 x2 x3 b h q0 hQ hK h0 h1 h3 h2 r d

end Tile

/-! ## The arrays the region finds -/

variable (m : (ℓ : Loc nD τ sig) → Buf (Elt Ideal) ℓ) (ρ : Dev nD → PrngReg)

abbrev argQ (c : Dev nD) : (⟨S2x16x2048x64, .f32⟩ : BufTy).Contents (Elt Ideal) := m ((c : Thread nD τ).loc main_arg0)
abbrev argK (c : Dev nD) : (⟨S2x16x2048x64, .f32⟩ : BufTy).Contents (Elt Ideal) := m ((c : Thread nD τ).loc main_arg1)
abbrev argV (c : Dev nD) : (⟨S2x16x2048x64, .f32⟩ : BufTy).Contents (Elt Ideal) := m ((c : Thread nD τ).loc main_arg2)
abbrev argM (c : Dev nD) : (⟨S2x1x2048x2048, .i1⟩ : BufTy).Contents (Elt Ideal) := m ((c : Thread nD τ).loc main_arg3)

/-- The mask window's array is the mask, each bit widened to a word. -/
theorem mask_words (c : Dev nD) :
    (V m c main_v0 : (⟨S2x1x2048x2048, .i32⟩ : BufTy).Contents (Elt Ideal)) = extui 32 (argM m c) natLt_1_32 := by
  dsimp only [Gen.V, Gen.hostOps0]
  after_results

/-! ## The index maps, decided over the grid -/

theorem idx_facts : ∀ t : Fin cfg0.N,
    win0_5.index t (0 : Fin 4) < 2 ∧ win0_5.index t (1 : Fin 4) < 16 ∧ win0_5.index t (2 : Fin 4) < 4 ∧ win0_5.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0 :=
  (by decide +kernel : ∀ t : Fin grid0.N, _)

/-- Every block of the weight array is some point's, and so is every block of the context array. -/
theorem idx_onto5 : ∀ (b : Fin 2) (h : Fin 16) (q0 : Fin 4), ∃ t : Fin cfg0.N, win0_5.index t = ![b.val, h.val, q0.val, 0] :=
  (by decide +kernel : ∀ (b : Fin 2) (h : Fin 16) (q0 : Fin 4), ∃ t : Fin grid0.N, win0_5.index t = ![b.val, h.val, q0.val, 0])
theorem idx_onto4 : ∀ (b : Fin 2) (h : Fin 16) (q0 : Fin 4), ∃ t : Fin cfg0.N, win0_4.index t = ![b.val, h.val, q0.val, 0] :=
  (by decide +kernel : ∀ (b : Fin 2) (h : Fin 16) (q0 : Fin 4), ∃ t : Fin grid0.N, win0_4.index t = ![b.val, h.val, q0.val, 0])

/-! ## The blocks at a point are rows of the arrays -/

section Point

variable (c : Dev nD) (t : Fin cfg0.N) (hb : win0_5.index t (0 : Fin 4) < 2) (hh : win0_5.index t (1 : Fin 4) < 16) (hq : win0_5.index t (2 : Fin 4) < 4)

theorem qblock (e0 : win0_0.index t (0 : Fin 4) = win0_5.index t (0 : Fin 4)) (e1 : win0_0.index t (1 : Fin 4) = win0_5.index t (1 : Fin 4))
    (e2 : win0_0.index t (2 : Fin 4) = win0_5.index t (2 : Fin 4)) (e3 : win0_0.index t (3 : Fin 4) = 0) (r : Fin 512) (d : Fin 64) :
    iblk m c 0 t (ix4 0 0 r d) = argQ m c (ix4 ⟨win0_5.index t (0 : Fin 4), hb⟩ ⟨win0_5.index t (1 : Fin 4), hh⟩ (qrow ⟨win0_5.index t (2 : Fin 4), hq⟩ r) d) := by
  show V m c main_arg0 (((cfg0.win 0).blk t).view.emb (ix4 0 0 r d)) = _
  rw [V_main_arg0]
  refine congrArg (argQ m c) (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 512 + 1 * r.val = win0_5.index t (2 : Fin 4) * 512 + r.val; omega
  | ⟨3, _⟩ => show win0_0.index t (3 : Fin 4) * 64 + 1 * d.val = d.val; omega

theorem kblock (e0 : win0_1.index t (0 : Fin 4) = win0_5.index t (0 : Fin 4)) (e1 : win0_1.index t (1 : Fin 4) = win0_5.index t (1 : Fin 4))
    (e2 : win0_1.index t (2 : Fin 4) = 0) (e3 : win0_1.index t (3 : Fin 4) = 0) (k : Fin 2048) (d : Fin 64) :
    iblk m c 1 t (ix4 0 0 k d) = argK m c (ix4 ⟨win0_5.index t (0 : Fin 4), hb⟩ ⟨win0_5.index t (1 : Fin 4), hh⟩ k d) := by
  show V m c main_arg1 (((cfg0.win 1).blk t).view.emb (ix4 0 0 k d)) = _
  rw [V_main_arg1]
  refine congrArg (argK m c) (funext fun a => Fin.ext ?_)
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 2048 + 1 * k.val = k.val; omega
  | ⟨3, _⟩ => show win0_1.index t (3 : Fin 4) * 64 + 1 * d.val = d.val; omega

theorem vblock (e0 : win0_2.index t (0 : Fin 4) = win0_5.index t (0 : Fin 4)) (e1 : win0_2.index t (1 : Fin 4) = win0_5.index t (1 : Fin 4))
    (e2 : win0_2.index t (2 : Fin 4) = 0) (e3 : win0_2.index t (3 : Fin 4) = 0) (k : Fin 2048) (d : Fin 64) :
    iblk m c 2 t (ix4 0 0 k d) = argV m c (ix4 ⟨win0_5.index t (0 : Fin 4), hb⟩ ⟨win0_5.index t (1 : Fin 4), hh⟩ k d) := by
  show V m c main_arg2 (((cfg0.win 2).blk t).view.emb (ix4 0 0 k d)) = _
  rw [V_main_arg2]
  refine congrArg (argV m c) (funext fun a => Fin.ext ?_)
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * k.val = k.val; omega
  | ⟨3, _⟩ => show win0_2.index t (3 : Fin 4) * 64 + 1 * d.val = d.val; omega

theorem mblock (e0 : win0_3.index t (0 : Fin 4) = win0_5.index t (0 : Fin 4)) (e1 : win0_3.index t (1 : Fin 4) = 0)
    (e2 : win0_3.index t (2 : Fin 4) = win0_5.index t (2 : Fin 4)) (e3 : win0_3.index t (3 : Fin 4) = 0) (r : Fin 512) (k : Fin 2048) :
    iblk m c 3 t (ix4 0 0 r k)
      = (argM m c (ix4 ⟨win0_5.index t (0 : Fin 4), hb⟩ 0 (qrow ⟨win0_5.index t (2 : Fin 4), hq⟩ r) k)).setWidth 32 := by
  show V m c main_v0 (((cfg0.win 3).blk t).view.emb (ix4 0 0 r k)) = _
  rw [mask_words]
  show (argM m c (((cfg0.win 3).blk t).view.emb (ix4 0 0 r k))).setWidth 32 = _
  refine congrArg (fun i => (argM m c i).setWidth 32) (funext fun a => Fin.ext ?_)
  match a with
  | ⟨0, _⟩ => show win0_3.index t (0 : Fin 4) * 1 + 1 * 0 = win0_5.index t (0 : Fin 4); omega
  | ⟨1, _⟩ => show win0_3.index t (1 : Fin 4) * 1 + 1 * 0 = 0; omega
  | ⟨2, _⟩ => show win0_3.index t (2 : Fin 4) * 512 + 1 * r.val = win0_5.index t (2 : Fin 4) * 512 + r.val; omega
  | ⟨3, _⟩ => show win0_3.index t (3 : Fin 4) * 2048 + 1 * k.val = k.val; omega

end Point

/-! ## What a point writes back -/

variable (c : Dev nD)

/-- Point `t` writes back block `t` of the reference's weights. -/
theorem flushed5_eq (hQ : ∀ i, argQ m c i ≠ ⊥ ∧ argQ m c i ≠ ⊤) (hK : ∀ i, argK m c i ≠ ⊥ ∧ argK m c i ≠ ⊤) (t : Fin cfg0.N) :
    (dats m 0 c).flushed 5 t
      = ((cfg0.win 5).blk t).view.read (Elt Ideal) (val_main_v14 (F := Ideal) (argQ m c) (argK m c) (argM m c)) := by
  rw [Value.flushed5]
  obtain ⟨hb, hh, hq, f3, g0, g1, g2, g3, a0, a1, a2, a3, b0, b1, b2, b3, c0, c1, c2, c3, d0, d1, d2, d3⟩ := idx_facts t
  funext y
  show out0_5 (iblk m c 0 t) (iblk m c 1 t) (iblk m c 2 t) (iblk m c 3 t) y
    = val_main_v14 (F := Ideal) (argQ m c) (argK m c) (argM m c) (((cfg0.win 5).blk t).view.emb y)
  refine (out5_apply (argQ m c) (argK m c) (argM m c) (iblk m c 0 t) (iblk m c 1 t) (iblk m c 2 t) (iblk m c 3 t)
    ⟨win0_5.index t (0 : Fin 4), hb⟩ ⟨win0_5.index t (1 : Fin 4), hh⟩ ⟨win0_5.index t (2 : Fin 4), hq⟩ hQ hK
    (qblock m c t hb hh hq a0 a1 a2 a3) (kblock m c t hb hh b0 b1 b2 b3) (mblock m c t hb hq d0 d1 d2 d3) y).trans ?_
  refine congrArg (val_main_v14 (F := Ideal) (argQ m c) (argK m c) (argM m c)) (funext fun a => Fin.ext ?_)
  match a with
  | ⟨0, _⟩ => have h0 : (y 0).val < 1 := (y 0).isLt; show win0_5.index t (0 : Fin 4) = win0_5.index t (0 : Fin 4) * 1 + 1 * (y 0).val; omega
  | ⟨1, _⟩ => have h1 : (y 1).val < 1 := (y 1).isLt; show win0_5.index t (1 : Fin 4) = win0_5.index t (1 : Fin 4) * 1 + 1 * (y 1).val; omega
  | ⟨2, _⟩ => show win0_5.index t (2 : Fin 4) * 512 + (y 2).val = win0_5.index t (2 : Fin 4) * 512 + 1 * (y 2).val; omega
  | ⟨3, _⟩ => show (y 3).val = win0_5.index t (3 : Fin 4) * 2048 + 1 * (y 3).val; omega

/-- Point `t` writes back block `t` of the reference's context. -/
theorem flushed4_eq (hQ : ∀ i, argQ m c i ≠ ⊥ ∧ argQ m c i ≠ ⊤) (hK : ∀ i, argK m c i ≠ ⊥ ∧ argK m c i ≠ ⊤) (t : Fin cfg0.N) :
    (dats m 0 c).flushed 4 t
      = ((cfg0.win 4).blk t).view.read (Elt Ideal) (val_main_v15 (F := Ideal) (argQ m c) (argK m c) (argV m c) (argM m c)) := by
  rw [Value.flushed4]
  obtain ⟨hb, hh, hq, f3, g0, g1, g2, g3, a0, a1, a2, a3, b0, b1, b2, b3, c0, c1, c2, c3, d0, d1, d2, d3⟩ := idx_facts t
  funext y
  show out0_4 (iblk m c 0 t) (iblk m c 1 t) (iblk m c 2 t) (iblk m c 3 t) y
    = val_main_v15 (F := Ideal) (argQ m c) (argK m c) (argV m c) (argM m c) (((cfg0.win 4).blk t).view.emb y)
  refine (out4_apply (argQ m c) (argK m c) (argV m c) (argM m c) (iblk m c 0 t) (iblk m c 1 t) (iblk m c 2 t) (iblk m c 3 t)
    ⟨win0_5.index t (0 : Fin 4), hb⟩ ⟨win0_5.index t (1 : Fin 4), hh⟩ ⟨win0_5.index t (2 : Fin 4), hq⟩ hQ hK
    (qblock m c t hb hh hq a0 a1 a2 a3) (kblock m c t hb hh b0 b1 b2 b3) (vblock m c t hb hh c0 c1 c2 c3) (mblock m c t hb hq d0 d1 d2 d3) y).trans ?_
  refine congrArg (val_main_v15 (F := Ideal) (argQ m c) (argK m c) (argV m c) (argM m c)) (funext fun a => Fin.ext ?_)
  match a with
  | ⟨0, _⟩ => have h0 : (y 0).val < 1 := (y 0).isLt; show win0_5.index t (0 : Fin 4) = win0_4.index t (0 : Fin 4) * 1 + 1 * (y 0).val; omega
  | ⟨1, _⟩ => have h1 : (y 1).val < 1 := (y 1).isLt; show win0_5.index t (1 : Fin 4) = win0_4.index t (1 : Fin 4) * 1 + 1 * (y 1).val; omega
  | ⟨2, _⟩ => show win0_5.index t (2 : Fin 4) * 512 + (y 2).val = win0_4.index t (2 : Fin 4) * 512 + 1 * (y 2).val; omega
  | ⟨3, _⟩ => show (y 3).val = win0_4.index t (3 : Fin 4) * 64 + 1 * (y 3).val; omega

/-! ## The blocks cover the arrays -/

theorem mem_blk5 (t : Fin cfg0.N) (i : S2x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v1_0).slice (win0_4.rect t)).set ↔ _
  rw [View.set_slice_whole, Rect.mem_set_unit]
  exact Iff.rfl

theorem cover5 (i : S2x16x2048x2048.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto5 ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

theorem cover4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- The weight array ends at the reference's weights of the argument arrays. -/
theorem final5 (hQ : ∀ i, argQ m c i ≠ ⊥ ∧ argQ m c i ≠ ⊤) (hK : ∀ i, argK m c i ≠ ⊥ ∧ argK m c i ≠ ⊤) : (dats m 0 c).arrAt 5 cfg0.N = val_main_v14 (F := Ideal) (argQ m c) (argK m c) (argM m c) :=
  (dats m 0 c).arrAt_eq_of_cover 5 (val_main_v14 (F := Ideal) (argQ m c) (argK m c) (argM m c))
    (fun t _ => flushed5_eq m c hQ hK t) cover5

/-- The context array ends at the reference's context of the argument arrays. -/
theorem final4 (hQ : ∀ i, argQ m c i ≠ ⊥ ∧ argQ m c i ≠ ⊤) (hK : ∀ i, argK m c i ≠ ⊥ ∧ argK m c i ≠ ⊤) : (dats m 0 c).arrAt 4 cfg0.N = val_main_v15 (F := Ideal) (argQ m c) (argK m c) (argV m c) (argM m c) :=
  (dats m 0 c).arrAt_eq_of_cover 4 (val_main_v15 (F := Ideal) (argQ m c) (argK m c) (argV m c) (argM m c))
    (fun t _ => flushed4_eq m c hQ hK t) cover4

end Cert.KernelIdeal.Arrays

end
-- ==== Proof.FiniteEntries.lean ====
/-
  From the precondition to real entries.

  The precondition is the conjunction, over the three float arguments, of "every entry's absolute value is below
  plus infinity", each an all-reduce of the comparison's bits. An extended real whose absolute value
  `max x (-x)` is below plus infinity is neither infinity, so under the precondition every entry of the
  queries, the keys and the values is a real number.
-/
import proofs.«429797_j4458176053409_3_alg».proof.Pre_finite_inputs
import proofs.«429797_j4458176053409_3_alg».proof.Proof.Gen.Pre_finite_inputs
import proofs.«429797_j4458176053409_3_alg».proof.Proof.Words
import Idealize.ShloMosaic.Lib.ReduceAll
import Idealize.ShloMosaic.Lib.Affine
import Idealize.ShloMosaic.Lib.ValueIdx
import Idealize.ShloMosaic.Lib.Pipeline.Value

noncomputable section

namespace Cert.FiniteEntries

open Idealize.ShloMosaic Idealize.ShloMosaic.ValueIdx Cert.Pre_finite_inputs Cert.Pre_finite_inputs.Facts

instance : Subsingleton S_.Idx := ⟨fun a b => funext fun d => d.elim0⟩

/-- An extended real whose absolute value is below plus infinity is a real number. -/
theorem real_of_abs_lt_top (x : EReal) (h : Ideal.cmp .olt (max x (-x)) ⊤ = 1#1) : x ≠ ⊥ ∧ x ≠ ⊤ := by
  induction x using EReal.rec with
  | bot => simp [Ideal.cmp] at h
  | coe r => exact ⟨EReal.coe_ne_bot r, EReal.coe_ne_top r⟩
  | top => simp [Ideal.cmp] at h

variable [Cert.Pre_finite_inputs.Facts]

/-- One argument: if the all-reduce of its comparison bits is set, every entry is a real number. -/
theorem all_real (X : FVec Ideal S2x16x2048x64 .f32)
    (e : Host.reduce IntOp.andi
        (cmpf .olt (Host.absf X) (broadcastInDim S2x16x2048x64 ![] bcast_S_S2x16x2048x64 (constant (F := Ideal) S_ .f32 0x7F800000#32)))
        (constantI S_ 1 1#1) reducesTo_S2x16x2048x64_S_d0_1_2_3 h_S_ ix0 = 1#1)
    (i : S2x16x2048x64.Idx) : X i ≠ ⊥ ∧ X i ≠ ⊤ := by
  have hbit := Host.reduce_andi_all _ _ _ _ _ e i
  have hb : broadcastInDim S2x16x2048x64 ![] bcast_S_S2x16x2048x64 (constant (F := Ideal) S_ .f32 0x7F800000#32) i
      = Ideal.ofBits .f32 0x7F800000#32 :=
    broadcastInDim_apply _ bcast_S_S2x16x2048x64 (constant (F := Ideal) S_ .f32 0x7F800000#32) i ix0 (fun a => a.elim0)
  refine real_of_abs_lt_top (X i) ?_
  rw [← Cert.Words.pos_inf, ← hb]
  exact hbit

/-- THE PRECONDITION GIVES REAL ENTRIES of all three float arguments. -/
theorem real_of_pre (Q K V : FVec Ideal S2x16x2048x64 .f32) (M : IVec S2x1x2048x2048 1)
    (h : Cert.Pre_finite_inputs.fn (F := Ideal) Q K V M = fun _ => 1#1) :
    (∀ i, Q i ≠ ⊥ ∧ Q i ≠ ⊤) ∧ (∀ i, K i ≠ ⊥ ∧ K i ≠ ⊤) ∧ (∀ i, V i ≠ ⊥ ∧ V i ≠ ⊤) := by
  have h0 := congrFun h ix0
  dsimp only [fn] at h0
  obtain ⟨h1, h2⟩ := IntOp.andi_eq_one.1 h0
  obtain ⟨h11, h12⟩ := IntOp.andi_eq_one.1 h1
  exact ⟨all_real Q h11, all_real K h12, all_real V h2⟩

end Cert.FiniteEntries

end
-- ==== Proof.lean ====
/-
  Masked scaled dot-product attention: a tiled kernel against the whole-array reference, on the extended reals.

  For each batch and head the reference forms the scores `Q Kᵀ / 8` (the head width is 64), puts a fill where the
  mask is set, takes a softmax along the keys — exponentials of the scores less their row maximum, over the row
  sum — and multiplies the weights by `V`. The kernel does the same on tiles of 512 queries, with two differences
  that are laws of the extended reals. It scales the queries by 1/8 before the contraction: a nonnegative real factor
  comes out of a sum of products. And it multiplies each exponential by the reciprocal of the row sum instead of
  dividing by it: the two agree when the row sum is not zero, which holds because finite queries and keys make
  every masked score a real number, so every exponential is positive. The narrow float format the kernel passes
  its operands through is the identity here.

  The frames of the two kernel programs are the generated ones; the reference's frame is its generated run with the
  results dropped; the idealization rewrote nothing, so `preserves` is trivial; `algebraic` sets the kernel's run,
  with both result arrays read as whole-array functions of the arguments, beside the reference's run.
-/
import proofs.«429797_j4458176053409_3_alg».proof.Defs
import proofs.«429797_j4458176053409_3_alg».proof.Proof.Gen.Kernel
import proofs.«429797_j4458176053409_3_alg».proof.Proof.Gen.Kernel.Skeleton
import proofs.«429797_j4458176053409_3_alg».proof.Proof.Gen.Kernel.Launch
import proofs.«429797_j4458176053409_3_alg».proof.Proof.Gen.Kernel.Points
import proofs.«429797_j4458176053409_3_alg».proof.Proof.Gen.Kernel.Frame
import proofs.«429797_j4458176053409_3_alg».proof.Proof.Gen.KernelIdeal
import proofs.«429797_j4458176053409_3_alg».proof.Proof.Gen.KernelIdeal.Skeleton
import proofs.«429797_j4458176053409_3_alg».proof.Proof.Gen.KernelIdeal.Launch
import proofs.«429797_j4458176053409_3_alg».proof.Proof.Gen.KernelIdeal.Points
import proofs.«429797_j4458176053409_3_alg».proof.Proof.Gen.KernelIdeal.Frame
import proofs.«429797_j4458176053409_3_alg».proof.Proof.Gen.ReferenceIdeal
import proofs.«429797_j4458176053409_3_alg».proof.Proof.Gen.Pre_finite_inputs
import proofs.«429797_j4458176053409_3_alg».proof.Proof.Gen.KernelIdeal.Value
import proofs.«429797_j4458176053409_3_alg».proof.Proof.Gen.ReferenceIdeal.Run
import proofs.«429797_j4458176053409_3_alg».proof.Proof.Gen.ReferenceIdeal.Read
import proofs.«429797_j4458176053409_3_alg».proof.Proof.Arrays
import proofs.«429797_j4458176053409_3_alg».proof.Proof.FiniteEntries
import Idealize.ShloMosaic.Adequacy
import Idealize.ShloMosaic.Init

noncomputable section

namespace Cert.Proof

open Idealize.ShloMosaic Idealize.ShloMosaic.TcCoe Idealize.SL.Sem
open Cert.KernelIdeal.Arrays Cert.ReferenceIdeal.Read

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Under finite inputs the kernel's context and weight arrays end at the reference's context and weights of the
    same arguments: the kernel's run with both arrays read whole, beside the reference's run of agreeing arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.FiniteEntries.real_of_pre (argQ m c) (argK m c) (argV m c) (argM m c) (hpre c)
  refine ⟨fun c => val_main_v15 (F := Ideal) (argQ m c) (argK m c) (argV m c) (argM m c),
    fun c => val_main_v14 (F := Ideal) (argQ m c) (argK m c) (argM m c), ?_, ?_⟩
  · exact (θ_run Cert.KernelIdeal.defs _ _).mono (fun r h c =>
      ⟨(h c).1.trans (final4 m c (hfin c).1 (hfin c).2.1), (h c).2.1.trans (final5 m c (hfin c).1 (hfin c).2.1), (h c).2.2⟩)
      (Cert.KernelIdeal.Value.run_blocks m ρ)
  · refine (θ_run Cert.ReferenceIdeal.defs _ _).mono (fun _ h c => ⟨?_, ?_, (h c).2.2⟩)
      (Cert.ReferenceIdeal.Value.run (F := Ideal) m' ρ')
    · rw [(h c).1, val_main_v15_eq, (hagree c).1, (hagree c).2.1, (hagree c).2.2.1, (hagree c).2.2.2]
    · rw [(h c).2.1, val_main_v14_eq, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
